-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x3200000 : Shape := ⟨2, ![2, 3200000]⟩
abbrev S20x20 : Shape := ⟨2, ![20, 20]⟩
abbrev S20 : Shape := ⟨1, ![20]⟩
abbrev S20x256 : Shape := ⟨2, ![20, 256]⟩
abbrev S256 : Shape := ⟨1, ![256]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_
  bcast_S_S20x256 : S_.BroadcastsInDim S20x256 (![] : Fin 0 → Fin S20x256.rank)
  reducesTo_S20x256_S_d0_1 : S20x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S20x256 .f32) (main_arg6 : FVec F S256 .f32) (main_arg7 : FVec F S20x256 .f32) (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  let main_v19 : FVec F S20x256 .f32 := Host.absf main_arg5
  let main_cst_6 : FVec F S_ .f32 := constant S_ .f32 0x7F800000#32
  let main_v20 : FVec F S20x256 .f32 := broadcastInDim S20x256 ![] bcast_S_S20x256 main_cst_6
  let main_v21 : IVec S20x256 1 := cmpf .olt main_v19 main_v20
  let main_c_7 : IVec S_ 1 := constantI S_ 1 1#1
  let main_v22 : IVec S_ 1 := (fun x v => Host.reduce IntOp.andi x v reducesTo_S20x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S20x256 .f32 := Host.absf main_arg7
  let main_cst_10 : FVec F S_ .f32 := constant S_ .f32 0x7F800000#32
  let main_v30 : FVec F S20x256 .f32 := broadcastInDim S20x256 ![] bcast_S_S20x256 main_cst_10
  let main_v31 : IVec S20x256 1 := cmpf .olt main_v29 main_v30
  let main_c_11 : IVec S_ 1 := constantI S_ 1 1#1
  let main_v32 : IVec S_ 1 := (fun x v => Host.reduce IntOp.andi x v reducesTo_S20x256_S_d0_1 h_S_) main_v31 main_c_11
  let main_v33 : IVec S_ 1 := andi main_v28 main_v32
  main_v33

def fn {F : FTy → Type} [FloatOps F] (main_arg0 : FVec F S100000x20 .f32) (main_arg1 : IVec S2x3200000 32) (main_arg2 : FVec F S20x20 .f32) (main_arg3 : FVec F S20 .f32) (main_arg4 : FVec F S20x20 .f32) (main_arg5 : FVec F S20x256 .f32) (main_arg6 : FVec F S256 .f32) (main_arg7 : FVec F S20x256 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x20 .f32 := Host.absf main_arg2
  let main_cst_0 : FVec F S_ .f32 := constant S_ .f32 0x7F800000#32
  let main_v5 : FVec F S20x20 .f32 := broadcastInDim S20x20 ![] bcast_S_S20x20 main_cst_0
  let main_v6 : IVec S20x20 1 := cmpf .olt main_v4 main_v5
  let main_c_1 : IVec S_ 1 := constantI S_ 1 1#1
  let main_v7 : IVec S_ 1 := (fun x v => Host.reduce IntOp.andi x v reducesTo_S20x20_S_d0_1 h_S_) main_v6 main_c_1
  let main_v8 : IVec S_ 1 := andi main_v3 main_v7
  let main_v9 : FVec F S20 .f32 := Host.absf main_arg3
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x20 .f32 := Host.absf main_arg4
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_arg5 main_arg6 main_arg7 main_v13 main_v16
-- ==== Kernel.lean ====
abbrev S100000x20 : Shape := ⟨2, ![100000, 20]⟩
abbrev S2x3200000 : Shape := ⟨2, ![2, 3200000]⟩
abbrev S20x20 : Shape := ⟨2, ![20, 20]⟩
abbrev S20 : Shape := ⟨1, ![20]⟩
abbrev S20x256 : Shape := ⟨2, ![20, 256]⟩
abbrev S256 : Shape := ⟨1, ![256]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x20 : Shape := ⟨2, ![3200000, 20]⟩
abbrev S100000x1 : Shape := ⟨2, ![100000, 1]⟩
abbrev S1x20 : Shape := ⟨2, ![1, 20]⟩
abbrev S5000x20 : Shape := ⟨2, ![5000, 20]⟩
abbrev S1x256 : Shape := ⟨2, ![1, 256]⟩
abbrev S100000x256 : Shape := ⟨2, ![100000, 256]⟩
abbrev S5000x256 : Shape := ⟨2, ![5000, 256]⟩

abbrev nBuf : Space → Nat
  | .hbm => 60
  | .vmem => 18
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S20x20, .f32⟩
  | .hbm, ⟨3, _⟩ => ⟨S20, .f32⟩
  | .hbm, ⟨4, _⟩ => ⟨S20x20, .f32⟩
  | .hbm, ⟨5, _⟩ => ⟨S20x256, .f32⟩
  | .hbm, ⟨6, _⟩ => ⟨S256, .f32⟩
  | .hbm, ⟨7, _⟩ => ⟨S20x256, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x20, .f32⟩
  | .hbm, ⟨33, _⟩ => ⟨S_, .f32⟩
  | .hbm, ⟨34, _⟩ => ⟨S100000x20, .f32⟩
  | .hbm, ⟨35, _⟩ => ⟨S3200000x1, .i32⟩
  | .hbm, ⟨36, _⟩ => ⟨S100000x20, .f32⟩
  | .hbm, ⟨37, _⟩ => ⟨S100000x1, .f32⟩
  | .hbm, ⟨38, _⟩ => ⟨S100000x20, .f32⟩
  | .hbm, ⟨39, _⟩ => ⟨S100000x20, .f32⟩
  | .hbm, ⟨40, _⟩ => ⟨S1x20, .f32⟩
  | .hbm, ⟨41, _⟩ => ⟨S100000x20, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x20, .f32⟩
  | .hbm, ⟨51, _⟩ => ⟨S_, .f32⟩
  | .hbm, ⟨52, _⟩ => ⟨S100000x20, .f32⟩
  | .hbm, ⟨53, _⟩ => ⟨S3200000x1, .i32⟩
  | .hbm, ⟨54, _⟩ => ⟨S100000x20, .f32⟩
  | .hbm, ⟨55, _⟩ => ⟨S100000x1, .f32⟩
  | .hbm, ⟨56, _⟩ => ⟨S100000x20, .f32⟩
  | .hbm, ⟨57, _⟩ => ⟨S100000x20, .f32⟩
  | .hbm, ⟨58, _⟩ => ⟨S1x256, .f32⟩
  | .hbm, ⟨59, _⟩ => ⟨S100000x256, .f32⟩
  | .local _ .vmem, ⟨0, _⟩ => ⟨S5000x20, .f32⟩
  | .local _ .vmem, ⟨1, _⟩ => ⟨S5000x20, .f32⟩
  | .local _ .vmem, ⟨2, _⟩ => ⟨S5000x20, .f32⟩
  | .local _ .vmem, ⟨3, _⟩ => ⟨S5000x20, .f32⟩
  | .local _ .vmem, ⟨4, _⟩ => ⟨S20x20, .f32⟩
  | .local _ .vmem, ⟨5, _⟩ => ⟨S1x20, .f32⟩
  | .local _ .vmem, ⟨6, _⟩ => ⟨S20x20, .f32⟩
  | .local _ .vmem, ⟨7, _⟩ => ⟨S5000x20, .f32⟩
  | .local _ .vmem, ⟨8, _⟩ => ⟨S5000x20, .f32⟩
  | .local _ .vmem, ⟨9, _⟩ => ⟨S5000x20, .f32⟩
  | .local _ .vmem, ⟨10, _⟩ => ⟨S5000x20, .f32⟩
  | .local _ .vmem, ⟨11, _⟩ => ⟨S5000x20, .f32⟩
  | .local _ .vmem, ⟨12, _⟩ => ⟨S5000x20, .f32⟩
  | .local _ .vmem, ⟨13, _⟩ => ⟨S20x256, .f32⟩
  | .local _ .vmem, ⟨14, _⟩ => ⟨S1x256, .f32⟩
  | .local _ .vmem, ⟨15, _⟩ => ⟨S20x256, .f32⟩
  | .local _ .vmem, ⟨16, _⟩ => ⟨S5000x256, .f32⟩
  | .local _ .vmem, ⟨17, _⟩ => ⟨S5000x256, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  shapeCasts_S20_S1x20 : S20.ShapeCasts S1x20
  inb_S5000x20_S5000x20_0_0 : ∀ a, (![0, 0] : Fin 2 → Nat) a + S5000x20.size a ≤ S5000x20.size a
  h_S5000x20 : 0 < S5000x20.numel
  shapeCasts_S5000x20_S5000x20 : S5000x20.ShapeCasts S5000x20
  bitsLt_bf16_f32 : FTy.bits .bf16 < FTy.bits .f32
  inb_S20x20_S20x20_0_0 : ∀ a, (![0, 0] : Fin 2 → Nat) a + S20x20.size a ≤ S20x20.size a
  h_S20x20 : 0 < S20x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  shapeCasts_S256_S1x256 : S256.ShapeCasts S1x256
  inb_S20x256_S20x256_0_0 : ∀ a, (![0, 0] : Fin 2 → Nat) a + S20x256.size a ≤ S20x256.size a
  h_S20x256 : 0 < S20x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  scatter_S100000_S3200000x1_S3200000_n_0_0_1_wf : ScatterDims.WF S100000 S3200000x1 S3200000 [] [0] [0] 1
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S5000x20_S20x20_S5000x20_1_0_0_1_n_n_wf : DotDims.WF S5000x20 S20x20 S5000x20 [1] [0] [0] [1] [] []
  dot_S5000x20_S20x256_S5000x256_1_0_0_1_n_n_wf : DotDims.WF S5000x20 S20x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S100000x20.size a
  hwx0_0 : ∀ i : grid0.Coords, EltTy.bits .f32 = 32 ∨ (Rect.block (s := S100000x20) S5000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x20.size a ≤ S100000x20.size a
  hwx0_1 : ∀ i : grid0.Coords, EltTy.bits .f32 = 32 ∨ (Rect.block (s := S100000x20) S5000x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x20.size a ≤ S20x20.size a
  hwx0_2 : ∀ i : grid0.Coords, EltTy.bits .f32 = 32 ∨ (Rect.block (s := S20x20) S20x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x20.size a ≤ S100000x20.size a
  hwx0_5 : ∀ i : grid0.Coords, EltTy.bits .f32 = 32 ∨ (Rect.block (s := S100000x20) S5000x20.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x20.size a ≤ S100000x20.size a
  hwx1_0 : ∀ i : grid1.Coords, EltTy.bits .f32 = 32 ∨ (Rect.block (s := S100000x20) S5000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x20.size a ≤ S100000x20.size a
  hwx1_1 : ∀ i : grid1.Coords, EltTy.bits .f32 = 32 ∨ (Rect.block (s := S100000x20) S5000x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x256.size a ≤ S20x256.size a
  hwx1_2 : ∀ i : grid1.Coords, EltTy.bits .f32 = 32 ∨ (Rect.block (s := S20x256) S20x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20x256.size a ≤ S20x256.size a
  hwx1_4 : ∀ i : grid1.Coords, EltTy.bits .f32 = 32 ∨ (Rect.block (s := S20x256) S20x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S100000x256.size a
  hwx1_5 : ∀ i : grid1.Coords, EltTy.bits .f32 = 32 ∨ (Rect.block (s := S100000x256) S5000x256.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S5000x20_S20x20_S5000x20_1_0_0_1_n_n : DotDims S5000x20 S20x20 S5000x20 where
  lhsContracting := [1]
  rhsContracting := [0]
  lhsNonContracting := [0]
  rhsNonContracting := [1]
  lhsBatch := []
  rhsBatch := []
  wf := dot_S5000x20_S20x20_S5000x20_1_0_0_1_n_n_wf
def dot_S5000x20_S20x256_S5000x256_1_0_0_1_n_n : DotDims S5000x20 S20x256 S5000x256 where
  lhsContracting := [1]
  rhsContracting := [0]
  lhsNonContracting := [0]
  rhsNonContracting := [1]
  lhsBatch := []
  rhsBatch := []
  wf := dot_S5000x20_S20x256_S5000x256_1_0_0_1_n_n_wf

abbrev win0_0 : Pipeline.Window sig grid0 :=
  Pipeline.Window.ofSpec (Memref.whole main_v24) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x20.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S20x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S20x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x20 : Shape := ⟨2, ![100000, 20]⟩
abbrev S2x3200000 : Shape := ⟨2, ![2, 3200000]⟩
abbrev S20x20 : Shape := ⟨2, ![20, 20]⟩
abbrev S20 : Shape := ⟨1, ![20]⟩
abbrev S20x256 : Shape := ⟨2, ![20, 256]⟩
abbrev S256 : Shape := ⟨1, ![256]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x20 : Shape := ⟨2, ![3200000, 20]⟩
abbrev S100000 : Shape := ⟨1, ![100000]⟩
abbrev S100000x1 : Shape := ⟨2, ![100000, 1]⟩
abbrev S1x20 : Shape := ⟨2, ![1, 20]⟩
abbrev S100000x256 : Shape := ⟨2, ![100000, 256]⟩
abbrev S1x256 : Shape := ⟨2, ![1, 256]⟩

abbrev nBuf : Space → Nat
  | .hbm => 81
  | .vmem => 0
  | .smem => 0
  | _ => 0

abbrev bufTy : (tb : Table) → Fin (tcTables nBuf tb) → BufTy
  | .hbm, ⟨0, _⟩ => ⟨S100000x20, .f32⟩
  | .hbm, ⟨1, _⟩ => ⟨S2x3200000, .i32⟩
  | .hbm, ⟨2, _⟩ => ⟨S20x20, .f32⟩
  | .hbm, ⟨3, _⟩ => ⟨S20, .f32⟩
  | .hbm, ⟨4, _⟩ => ⟨S20x20, .f32⟩
  | .hbm, ⟨5, _⟩ => ⟨S20x256, .f32⟩
  | .hbm, ⟨6, _⟩ => ⟨S256, .f32⟩
  | .hbm, ⟨7, _⟩ => ⟨S20x256, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x20, .f32⟩
  | .hbm, ⟨21, _⟩ => ⟨S_, .f32⟩
  | .hbm, ⟨22, _⟩ => ⟨S100000x20, .f32⟩
  | .hbm, ⟨23, _⟩ => ⟨S3200000x1, .i32⟩
  | .hbm, ⟨24, _⟩ => ⟨S100000x20, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x20, .f32⟩
  | .hbm, ⟨36, _⟩ => ⟨S100000x20, .f32⟩
  | .hbm, ⟨37, _⟩ => ⟨S100000x20, .f32⟩
  | .hbm, ⟨38, _⟩ => ⟨S1x20, .f32⟩
  | .hbm, ⟨39, _⟩ => ⟨S100000x20, .f32⟩
  | .hbm, ⟨40, _⟩ => ⟨S100000x20, .f32⟩
  | .hbm, ⟨41, _⟩ => ⟨S100000x20, .f32⟩
  | .hbm, ⟨42, _⟩ => ⟨S100000x20, .f32⟩
  | .hbm, ⟨43, _⟩ => ⟨S_, .f32⟩
  | .hbm, ⟨44, _⟩ => ⟨S100000x20, .f32⟩
  | .hbm, ⟨45, _⟩ => ⟨S100000x20, .f32⟩
  | .hbm, ⟨46, _⟩ => ⟨S1x3200000, .i32⟩
  | .hbm, ⟨47, _⟩ => ⟨S3200000, .i32⟩
  | .hbm, ⟨48, _⟩ => ⟨S1x3200000, .i32⟩
  | .hbm, ⟨49, _⟩ => ⟨S3200000, .i32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x20, .f32⟩
  | .hbm, ⟨59, _⟩ => ⟨S_, .f32⟩
  | .hbm, ⟨60, _⟩ => ⟨S100000x20, .f32⟩
  | .hbm, ⟨61, _⟩ => ⟨S3200000x1, .i32⟩
  | .hbm, ⟨62, _⟩ => ⟨S100000x20, .f32⟩
  | .hbm, ⟨63, _⟩ => ⟨S_, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x20, .f32⟩
  | .hbm, ⟨74, _⟩ => ⟨S100000x20, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S100000x256, .f32⟩
  | .hbm, ⟨80, _⟩ => ⟨S100000x256, .f32⟩
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x20 : S_.BroadcastsInDim S100000x20 (![] : Fin 0 → Fin S100000x20.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  scatter_S100000_S3200000x1_S3200000_n_0_0_1_wf : ScatterDims.WF S100000 S3200000x1 S3200000 [] [0] [0] 1
  dot_S100000x20_S20x20_S100000x20_1_0_0_1_n_n_wf : DotDims.WF S100000x20 S20x20 S100000x20 [1] [0] [0] [1] [] []
  dot_S100000x20_S20x256_S100000x256_1_0_0_1_n_n_wf : DotDims.WF S100000x20 S20x256 S100000x256 [1] [0] [0] [1] [] []

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x20_S20x20_S100000x20_1_0_0_1_n_n : DotDims S100000x20 S20x20 S100000x20 where
  lhsContracting := [1]
  rhsContracting := [0]
  lhsNonContracting := [0]
  rhsNonContracting := [1]
  lhsBatch := []
  rhsBatch := []
  wf := dot_S100000x20_S20x20_S100000x20_1_0_0_1_n_n_wf
def dot_S100000x20_S20x256_S100000x256_1_0_0_1_n_n : DotDims S100000x20 S20x256 S100000x256 where
  lhsContracting := [1]
  rhsContracting := [0]
  lhsNonContracting := [0]
  rhsNonContracting := [1]
  lhsBatch := []
  rhsBatch := []
  wf := dot_S100000x20_S20x256_S100000x256_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibSageLayer.lean ====
/-
  One graph layer at the ideal values, independent of the sizes.

  The layer takes the neighbour sums `S` (an `[N, K]` array), divides row `n` by `d n = max (deg n) 1`, and returns
  `agg · wl + b + x · wr`. Three facts are needed about it.

  * THE MEAN. One program multiplies `S` by the reciprocal `1 / d n`, the other divides by `d n`. On the extended reals
    the quotient by a divisor that is not zero is the product with its inverse, and `d n ≥ 1`, so the two agree
    (`mean_eq`); nothing is asked of `S` or of `deg`.
  * THE ROWS. A tile of rows computes `ab · wl` and `xb · wr` by a matrix unit (operands narrowed to bf16, which is
    the identity here, accumulated into zeros), adds the two products and then the bias row. The plain layer computes
    `(A · wl + b) + X · wr`. Both are the textbook sums over the contracted index, and addition of extended reals is
    commutative and associative, so row `r` of the tile is row `n r` of the plain layer once the tile's rows are
    rows `n r` of `A` and `X` (`tile_rows`).
  * THE CLAMP AT ZERO. `max v 0` with the zero splat from a scalar or broadcast from a rank-0 constant (`relu_rows`).
-/
import proofs.«130715_j82506321756776_1_alg».proof.Proof.LibAffineRows
import Idealize.ShloMosaic.Lib.IdealHost

noncomputable section

namespace Cert.Sage

open Idealize.ShloMosaic Idealize.ShloMosaic.ValueIdx Cert.Lib

variable {R N K M : ℕ}

/-- The plain layer on whole arrays: `agg · wl + b + x · wr`, the bias vector broadcast over the rows. -/
def layer (dW : DotDims ⟨2, ![N, K]⟩ ⟨2, ![K, M]⟩ ⟨2, ![N, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (agg x : FVec Ideal ⟨2, ![N, K]⟩ .f32) (wl wr : FVec Ideal ⟨2, ![K, M]⟩ .f32) (b : FVec Ideal ⟨1, ![M]⟩ .f32) :
    FVec Ideal ⟨2, ![N, M]⟩ .f32 :=
  addf (addf (Host.dotGeneral dW none agg wl)
      (broadcastInDim ⟨2, ![N, M]⟩ ![0, 1] h2 (broadcastInDim ⟨2, ![1, M]⟩ ![1] h1 b)))
    (Host.dotGeneral dW none x wr)

/-- ROW BY ROW: the tile's `ab · wl + xb · wr + bias row` at `(r, q)` is the plain layer at `(n r, q)`. -/
theorem tile_rows
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (ab xb : FVec Ideal ⟨2, ![R, K]⟩ .f32) (A X : FVec Ideal ⟨2, ![N, K]⟩ .f32) (wl wr : FVec Ideal ⟨2, ![K, M]⟩ .f32)
    (b2 : FVec Ideal ⟨2, ![1, M]⟩ .f32) (b : FVec Ideal ⟨1, ![M]⟩ .f32) (n : Fin R → Fin N)
    (ha : ∀ r k, ab (ix2 r k) = A (ix2 (n r) k)) (hx : ∀ r k, xb (ix2 r k) = X (ix2 (n r) k))
    (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (addf (matmul dB none (truncf .bf16 ab ht) (truncf .bf16 wl ht) (constant ⟨2, ![R, M]⟩ .f32 0x00000000#32))
          (matmul dB none (truncf .bf16 xb ht) (truncf .bf16 wr ht) (constant ⟨2, ![R, M]⟩ .f32 0x00000000#32)))
        (broadcastTo ⟨2, ![R, M]⟩ (shapeCast ⟨2, ![1, M]⟩ b2 hsc) hbc) (ix2 r q)
      = layer dW h1 h2 A X wl wr b (ix2 (n r) q) := by
  unfold layer
  simp only [addf_apply]
  rw [matmul_zero_apply hB, matmul_zero_apply hB, dotGeneral_apply hW, dotGeneral_apply hW, bias_rows_apply,
    broadcastTo_1b_ab_apply, shapeCast_self, hb]
  simp only [ha, hx]
  exact add_right_comm _ _ _

/-- The clamp at zero in its two spellings, read at indices where the clamped values agree. -/
theorem relu_rows (v : FVec Ideal ⟨2, ![R, M]⟩ .f32) (w : FVec Ideal ⟨2, ![N, M]⟩ .f32)
    (hz : (⟨0, ![]⟩ : Shape).BroadcastsInDim ⟨2, ![N, M]⟩ ![])
    (i : (⟨2, ![R, M]⟩ : Shape).Idx) (j : (⟨2, ![N, M]⟩ : Shape).Idx) (h : v i = w j) :
    maximumf v (broadcast ⟨2, ![R, M]⟩ (Scalar.ofBits .f32 0x00000000#32)) i
      = maximumf w (broadcastInDim ⟨2, ![N, M]⟩ ![] hz (constant ⟨0, ![]⟩ .f32 0x00000000#32)) j := by
  rw [maximumf_apply, maximumf_apply, broadcast_apply, broadcastInDim_scalar_apply, constant_apply, h]
  rfl

/-- A vector `[N]` made a column `[N, 1]` and broadcast over `K` columns reads, at `(n, k)`, the vector at `n`. -/
theorem column_apply (v : FVec Ideal ⟨1, ![N]⟩ .f32)
    (g1 : (⟨1, ![N]⟩ : Shape).BroadcastsInDim ⟨2, ![N, 1]⟩ (![0] : Fin 1 → Fin 2))
    (g2 : (⟨2, ![N, 1]⟩ : Shape).BroadcastsInDim ⟨2, ![N, K]⟩ (![0, 1] : Fin 2 → Fin 2)) (n : Fin N) (k : Fin K) :
    broadcastInDim ⟨2, ![N, K]⟩ ![0, 1] g2 (broadcastInDim ⟨2, ![N, 1]⟩ ![0] g1 v) (ix2 n k) = v (ix1 n) := by
  rw [broadcastInDim_apply _ g2 _ (ix2 n k) (ix2 n (0 : Fin 1)) (fun a => by
    match a with
    | ⟨0, _⟩ => show n.val = if N = 1 then 0 else n.val; split <;> [(have := n.isLt; omega); rfl]
    | ⟨1, _⟩ => show (0 : ℕ) = if (1 : ℕ) = 1 then 0 else k.val; rw [if_pos rfl])]
  exact broadcastInDim_apply _ g1 v (ix2 n (0 : Fin 1)) (ix1 n) (fun a => by
    match a with
    | ⟨0, _⟩ => show n.val = if N = 1 then 0 else n.val; split <;> [(have := n.isLt; omega); rfl])

/-- THE MEAN: the product with the reciprocal of `max deg 1` is the quotient by it, row by row. -/
theorem mean_eq (S : FVec Ideal ⟨2, ![N, K]⟩ .f32) (deg o1 o2 : FVec Ideal ⟨1, ![N]⟩ .f32)
    (ho1 : ∀ i, o1 i = 1) (ho2 : ∀ i, o2 i = 1)
    (g1 : (⟨1, ![N]⟩ : Shape).BroadcastsInDim ⟨2, ![N, 1]⟩ (![0] : Fin 1 → Fin 2))
    (g2 : (⟨2, ![N, 1]⟩ : Shape).BroadcastsInDim ⟨2, ![N, K]⟩ (![0, 1] : Fin 2 → Fin 2)) :
    mulf S (broadcastInDim ⟨2, ![N, K]⟩ ![0, 1] g2 (broadcastInDim ⟨2, ![N, 1]⟩ ![0] g1 (Host.divf o1 (maximumf deg o2))))
      = Host.divf S (broadcastInDim ⟨2, ![N, K]⟩ ![0, 1] g2 (broadcastInDim ⟨2, ![N, 1]⟩ ![0] g1 (maximumf deg o2))) := by
  funext i
  obtain ⟨n, k, rfl⟩ : ∃ (n : Fin N) (k : Fin K), i = ix2 n k := ⟨i 0, i 1, eq_ix2 i⟩
  rw [mulf_apply, hostDivf_apply, column_apply, column_apply, hostDivf_apply, maximumf_apply, ho1, ho2]
  exact Ideal.mul_one_div (lt_of_lt_of_le zero_lt_one (le_max_right _ _)).ne'

/-- A splat of the word of one reads one everywhere. -/
theorem ones_apply {T : Shape} (h : (⟨0, ![]⟩ : Shape).BroadcastsInDim T ![]) (i : T.Idx) :
    (broadcastInDim T ![] h (constant (F := Ideal) ⟨0, ![]⟩ .f32 0x3F800000#32) : FVec Ideal T .f32) i = 1 := by
  rw [broadcastInDim_scalar_apply, constant_apply, Ideal.ofBits_one_f32]

end Cert.Sage

end
-- ==== Proof.KDots.lean ====
/-
  The tiles' two matrix products have the plain dimension numbers: one contracted index of extent 20, the left
  operand's column and the right operand's row; the result's row is the left operand's row and its column the right
  operand's column. Each of the four facts is read off the record's lists of axes.
-/
import proofs.«130715_j82506321756776_1_alg».proof.Proof.Gen.KernelIdeal
import proofs.«130715_j82506321756776_1_alg».proof.Proof.LibAffineRows

noncomputable section

namespace Cert.KernelIdeal.Dots

open Cert.KernelIdeal Idealize.ShloMosaic

/-! ### `dot_S5000x20_S20x20_S5000x20_1_0_0_1_n_n` -/

theorem lhs_h_0 (i : S5000x20.Idx) (q : dot_S5000x20_S20x20_S5000x20_1_0_0_1_n_n.contr.Idx) :
    (dot_S5000x20_S20x20_S5000x20_1_0_0_1_n_n.lhsIdx i q 0).val = (i 0).val := by
  unfold DotDims.lhsIdx
  rw [dif_neg (show ¬(0 : Fin S5000x20.rank) ∈ dot_S5000x20_S20x20_S5000x20_1_0_0_1_n_n.lhsBatch by decide), dif_pos (show (0 : Fin S5000x20.rank) ∈ dot_S5000x20_S20x20_S5000x20_1_0_0_1_n_n.lhsNonContracting by decide)]
  rfl
theorem lhs_h_1 (i : S5000x20.Idx) (q : dot_S5000x20_S20x20_S5000x20_1_0_0_1_n_n.contr.Idx) :
    (dot_S5000x20_S20x20_S5000x20_1_0_0_1_n_n.lhsIdx i q 1).val = (q ⟨0, by decide⟩).val :=
  dot_S5000x20_S20x20_S5000x20_1_0_0_1_n_n.lhsIdx_val_of_single rfl i q
theorem rhs_h_0 (i : S5000x20.Idx) (q : dot_S5000x20_S20x20_S5000x20_1_0_0_1_n_n.contr.Idx) :
    (dot_S5000x20_S20x20_S5000x20_1_0_0_1_n_n.rhsIdx i q 0).val = (q ⟨0, by decide⟩).val :=
  dot_S5000x20_S20x20_S5000x20_1_0_0_1_n_n.rhsIdx_val_of_single rfl i q
theorem rhs_h_1 (i : S5000x20.Idx) (q : dot_S5000x20_S20x20_S5000x20_1_0_0_1_n_n.contr.Idx) :
    (dot_S5000x20_S20x20_S5000x20_1_0_0_1_n_n.rhsIdx i q 1).val = (i 1).val := by
  unfold DotDims.rhsIdx
  rw [dif_neg (show ¬(1 : Fin S20x20.rank) ∈ dot_S5000x20_S20x20_S5000x20_1_0_0_1_n_n.rhsBatch by decide), dif_pos (show (1 : Fin S20x20.rank) ∈ dot_S5000x20_S20x20_S5000x20_1_0_0_1_n_n.rhsNonContracting by decide)]
  rfl

/-- The record is the plain product of a `[5000, 20]` by a `[20, 20]` matrix. -/
theorem plain_h : Cert.Lib.PlainDot (R := 5000) (K := 20) (M := 20) dot_S5000x20_S20x20_S5000x20_1_0_0_1_n_n :=
  ⟨rfl, rfl, lhs_h_0, lhs_h_1, rhs_h_0, rhs_h_1⟩

/-! ### `dot_S5000x20_S20x256_S5000x256_1_0_0_1_n_n` -/

theorem lhs_o_0 (i : S5000x256.Idx) (q : dot_S5000x20_S20x256_S5000x256_1_0_0_1_n_n.contr.Idx) :
    (dot_S5000x20_S20x256_S5000x256_1_0_0_1_n_n.lhsIdx i q 0).val = (i 0).val := by
  unfold DotDims.lhsIdx
  rw [dif_neg (show ¬(0 : Fin S5000x20.rank) ∈ dot_S5000x20_S20x256_S5000x256_1_0_0_1_n_n.lhsBatch by decide), dif_pos (show (0 : Fin S5000x20.rank) ∈ dot_S5000x20_S20x256_S5000x256_1_0_0_1_n_n.lhsNonContracting by decide)]
  rfl
theorem lhs_o_1 (i : S5000x256.Idx) (q : dot_S5000x20_S20x256_S5000x256_1_0_0_1_n_n.contr.Idx) :
    (dot_S5000x20_S20x256_S5000x256_1_0_0_1_n_n.lhsIdx i q 1).val = (q ⟨0, by decide⟩).val :=
  dot_S5000x20_S20x256_S5000x256_1_0_0_1_n_n.lhsIdx_val_of_single rfl i q
theorem rhs_o_0 (i : S5000x256.Idx) (q : dot_S5000x20_S20x256_S5000x256_1_0_0_1_n_n.contr.Idx) :
    (dot_S5000x20_S20x256_S5000x256_1_0_0_1_n_n.rhsIdx i q 0).val = (q ⟨0, by decide⟩).val :=
  dot_S5000x20_S20x256_S5000x256_1_0_0_1_n_n.rhsIdx_val_of_single rfl i q
theorem rhs_o_1 (i : S5000x256.Idx) (q : dot_S5000x20_S20x256_S5000x256_1_0_0_1_n_n.contr.Idx) :
    (dot_S5000x20_S20x256_S5000x256_1_0_0_1_n_n.rhsIdx i q 1).val = (i 1).val := by
  unfold DotDims.rhsIdx
  rw [dif_neg (show ¬(1 : Fin S20x256.rank) ∈ dot_S5000x20_S20x256_S5000x256_1_0_0_1_n_n.rhsBatch by decide), dif_pos (show (1 : Fin S20x256.rank) ∈ dot_S5000x20_S20x256_S5000x256_1_0_0_1_n_n.rhsNonContracting by decide)]
  rfl

/-- The record is the plain product of a `[5000, 20]` by a `[20, 256]` matrix. -/
theorem plain_o : Cert.Lib.PlainDot (R := 5000) (K := 20) (M := 256) dot_S5000x20_S20x256_S5000x256_1_0_0_1_n_n :=
  ⟨rfl, rfl, lhs_o_0, lhs_o_1, rhs_o_0, rhs_o_1⟩

end Cert.KernelIdeal.Dots

end
-- ==== Proof.KRegion0.lean ====
/-
  The first tiled call read as one whole array.

  The call walks 20 tiles of 5000 rows. At tile `t` it stages rows `5000 t … 5000 t + 4999` of the aggregated
  features and of the node features, the two 20 × 20 weight matrices and the bias row whole, and writes back rows
  `5000 t … 5000 t + 4999` of the result. Row `p` of a tile is therefore row `5000 t + p` of each array, the tile's
  value at `(p, q)` depends on that row alone, and by the row-by-row lemma it is the plain layer clamped at zero at
  `(5000 t + p, q)`. Every row `r` lies in tile `r / 5000`, so the tiles cover the result and the array after the
  call IS the plain layer clamped at zero, of the arrays as the call finds them.
-/
import proofs.«130715_j82506321756776_1_alg».proof.Proof.Gen.KernelIdeal.Frame
import proofs.«130715_j82506321756776_1_alg».proof.Proof.LibSageLayer
import proofs.«130715_j82506321756776_1_alg».proof.Proof.KDots
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays the call finds, at their literal types -/

abbrev aggArr (c : Dev nD) : FVec Ideal S100000x20 .f32 := V c main_v24
abbrev xArr (c : Dev nD) : FVec Ideal S100000x20 .f32 := V c main_arg0
abbrev wlArr (c : Dev nD) : FVec Ideal S20x20 .f32 := V c main_arg2
abbrev brArr (c : Dev nD) : FVec Ideal S1x20 .f32 := V c main_v25
abbrev wrArr (c : Dev nD) : FVec Ideal S20x20 .f32 := V c main_arg4

theorem hz : (![0, 0] : Fin 2 → Nat) = fun _ => 0 := funext fun a => by fin_cases a <;> rfl

/-- The row of the whole array that row `p` of tile `t` is. -/
def rowOf (t : Fin cfg0.N) (p : Fin 5000) : Fin 100000 :=
  ⟨t.val * 5000 + p.val, by have h : t.val < 20 := lt_of_lt_of_eq t.isLt N_0; have := p.isLt; omega⟩

/-- The printed index maps, decided over the grid: the two row-tiled inputs and the output sit at block `(t, 0)`, the
    weights and the bias row at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks, read where the tile says -/

theorem read_agg (c : Dev nD) (t : Fin cfg0.N) (p : Fin 5000) (k : Fin 20) :
    iblk0 V c 0 t (ix2 p k) = aggArr V c (ix2 (rowOf t p) k) := by
  show V c main_v24 (((cfg0.win 0).blk t).view.emb (ix2 p k)) = V c main_v24 (ix2 (rowOf t p) k)
  refine congrArg _ (funext fun a => Fin.ext ?_)
  obtain ⟨e0, e1, -⟩ := idx_facts t
  match a with
  | ⟨0, _⟩ => show win0_0.index t (0 : Fin 2) * 5000 + 1 * p.val = t.val * 5000 + p.val; rw [e0]; omega
  | ⟨1, _⟩ => show win0_0.index t (1 : Fin 2) * 20 + 1 * k.val = k.val; rw [e1]; omega

theorem read_x (c : Dev nD) (t : Fin cfg0.N) (p : Fin 5000) (k : Fin 20) :
    iblk0 V c 1 t (ix2 p k) = xArr V c (ix2 (rowOf t p) k) := by
  show V c main_arg0 (((cfg0.win 1).blk t).view.emb (ix2 p k)) = V c main_arg0 (ix2 (rowOf t p) k)
  refine congrArg _ (funext fun a => Fin.ext ?_)
  obtain ⟨-, -, e0, e1, -⟩ := idx_facts t
  match a with
  | ⟨0, _⟩ => show win0_1.index t (0 : Fin 2) * 5000 + 1 * p.val = t.val * 5000 + p.val; rw [e0]; omega
  | ⟨1, _⟩ => show win0_1.index t (1 : Fin 2) * 20 + 1 * k.val = k.val; rw [e1]; omega

theorem blk_wl (c : Dev nD) (t : Fin cfg0.N) : iblk0 V c 2 t = wlArr V c := by
  funext y
  show V c main_arg2 (((cfg0.win 2).blk t).view.emb y) = V c main_arg2 y
  refine congrArg _ (funext fun a => Fin.ext ?_)
  obtain ⟨-, -, -, -, e0, e1, -⟩ := idx_facts t
  match a with
  | ⟨0, _⟩ => show win0_2.index t (0 : Fin 2) * 20 + 1 * (y 0).val = (y 0).val; rw [e0]; omega
  | ⟨1, _⟩ => show win0_2.index t (1 : Fin 2) * 20 + 1 * (y 1).val = (y 1).val; rw [e1]; omega

theorem blk_br (c : Dev nD) (t : Fin cfg0.N) : iblk0 V c 3 t = brArr V c := by
  funext y
  show V c main_v25 (((cfg0.win 3).blk t).view.emb y) = V c main_v25 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; rw [e0]; omega
  | ⟨1, _⟩ => show win0_3.index t (1 : Fin 2) * 20 + 1 * (y 1).val = (y 1).val; rw [e1]; omega

theorem blk_wr (c : Dev nD) (t : Fin cfg0.N) : iblk0 V c 4 t = wrArr V c := by
  funext y
  show V c main_arg4 (((cfg0.win 4).blk t).view.emb y) = V c main_arg4 y
  refine congrArg _ (funext fun a => Fin.ext ?_)
  obtain ⟨-, -, -, -, -, -, -, -, e0, e1, -⟩ := idx_facts t
  match a with
  | ⟨0, _⟩ => show win0_4.index t (0 : Fin 2) * 20 + 1 * (y 0).val = (y 0).val; rw [e0]; omega
  | ⟨1, _⟩ => show win0_4.index t (1 : Fin 2) * 20 + 1 * (y 1).val = (y 1).val; rw [e1]; omega

theorem emb_out (t : Fin cfg0.N) (p : Fin 5000) (q : Fin 20) :
    ((cfg0.win 5).blk t).view.emb (ix2 p q) = ix2 (rowOf t p) q := by
  funext a; apply Fin.ext
  obtain ⟨-, -, -, -, -, -, -, -, -, -, e0, e1⟩ := idx_facts t
  match a with
  | ⟨0, _⟩ => show win0_5.index t (0 : Fin 2) * 5000 + 1 * p.val = t.val * 5000 + p.val; rw [e0]; omega
  | ⟨1, _⟩ => show win0_5.index t (1 : Fin 2) * 20 + 1 * q.val = q.val; rw [e1]; omega

/-! ## The tile's value at an index -/

section
variable (dW : DotDims S100000x20 S20x20 S100000x20) (hW : Cert.Lib.PlainDot (R := 100000) (K := 20) (M := 20) dW)
  (h1 : S20.BroadcastsInDim S1x20 (![1] : Fin 1 → Fin 2)) (h2 : S1x20.BroadcastsInDim S100000x20 (![0, 1] : Fin 2 → Fin 2))
  (hzr : S_.BroadcastsInDim S100000x20 ![])

/-- What the call leaves: the plain layer clamped at zero, of whole arrays. -/
abbrev whole (A X : FVec Ideal S100000x20 .f32) (wl wr : FVec Ideal S20x20 .f32) (b : FVec Ideal S20 .f32) :
    FVec Ideal S100000x20 .f32 :=
  maximumf (Cert.Sage.layer dW h1 h2 A X wl wr b) (broadcastInDim S100000x20 ![] hzr (constant S_ .f32 0x00000000#32))

include hW in
/-- The body's stored value at `(p, q)`, over any blocks whose rows are rows `n p` of `A` and `X`. -/
theorem pay_at (x0 x1 : FVec Ideal S5000x20 .f32) (x2 x4 : FVec Ideal S20x20 .f32) (x3 : FVec Ideal S1x20 .f32)
    (A X : FVec Ideal S100000x20 .f32) (b : FVec Ideal S20 .f32) (n : Fin 5000 → Fin 100000)
    (ha : ∀ r k, x0 (ix2 r k) = A (ix2 (n r) k)) (hx : ∀ r k, x1 (ix2 r k) = X (ix2 (n r) k))
    (hb : ∀ q : Fin 20, x3 (ix2 (0 : Fin 1) q) = b (ix1 q)) (p : Fin 5000) (q : Fin 20) :
    k0_pay1 x0 x1 x2 x4 x3 (ix2 p q) = whole dW h1 h2 hzr A X x2 x4 b (ix2 (n p) q) := by
  show maximumf (addf (addf (matmul dot_S5000x20_S20x20_S5000x20_1_0_0_1_n_n none (truncf .bf16 (shapeCast S5000x20 x0 shapeCasts_S5000x20_S5000x20) bitsLt_bf16_f32) (truncf .bf16 x2 bitsLt_bf16_f32) (constant S5000x20 .f32 0x00000000#32))
        (matmul dot_S5000x20_S20x20_S5000x20_1_0_0_1_n_n none (truncf .bf16 x1 bitsLt_bf16_f32) (truncf .bf16 x4 bitsLt_bf16_f32) (constant S5000x20 .f32 0x00000000#32)))
      (broadcastTo S5000x20 (shapeCast S1x20 x3 shapeCasts_S1x20_S1x20) broadcasts_S1x20_S5000x20))
      (broadcast S5000x20 (Scalar.ofBits .f32 0x00000000#32)) (ix2 p q) = _
  refine Cert.Sage.relu_rows _ _ hzr (ix2 p q) (ix2 (n p) q) ?_
  exact Cert.Sage.tile_rows Dots.plain_h hW (shapeCast S5000x20 x0 shapeCasts_S5000x20_S5000x20) x1 A X x2 x4 x3 b n
    (fun r k => by rw [shapeCast_self]; exact ha r k) hx hb bitsLt_bf16_f32 shapeCasts_S1x20_S1x20
    broadcasts_S1x20_S5000x20 h1 h2 p q

/-! ## From the tiles to the array -/

include hW in
/-- WHAT TILE `t` WRITES BACK is block `t` of the plain layer clamped at zero. -/
theorem flushed_eq (c : Dev nD) (b : FVec Ideal S20 .f32) (hb : ∀ q : Fin 20, brArr V c (ix2 (0 : Fin 1) q) = b (ix1 q))
    (t : Fin cfg0.N) :
    (dat0 V c).flushed 5 t = ((cfg0.win 5).blk t).view.read (Elt Ideal)
      (whole dW h1 h2 hzr (aggArr V c) (xArr V c) (wlArr V c) (wrArr V c) b) := by
  show (cfg0.win 5).cut (grid0.coords t) ((dat0 V c).after 5 t) = _
  rw [after0_5]
  unfold out0_5
  rw [View.canon_unit_zero hz]
  simp only [View.ld_unit_zero (S := S5000x20) hz, View.ld_unit_zero (S := S20x20) hz, View.ld_unit_zero (S := S1x20) hz]
  funext j
  obtain ⟨p, q, rfl⟩ : ∃ (p : Fin 5000) (q : Fin 20), j = ix2 p q := ⟨j 0, j 1, eq_ix2 j⟩
  show k0_pay1 (iblk0 V c 0 t) (iblk0 V c 1 t) (iblk0 V c 2 t) (iblk0 V c 4 t) (iblk0 V c 3 t) (ix2 p q)
    = whole dW h1 h2 hzr (aggArr V c) (xArr V c) (wlArr V c) (wrArr V c) b (((cfg0.win 5).blk t).view.emb (ix2 p q))
  rw [emb_out t p q, ← blk_wl V c t, ← blk_wr V c t]
  exact pay_at dW hW h1 h2 hzr (iblk0 V c 0 t) (iblk0 V c 1 t) (iblk0 V c 2 t) (iblk0 V c 4 t) (iblk0 V c 3 t)
    (aggArr V c) (xArr V c) b (rowOf t) (read_agg V c t) (read_x V c t)
    (fun q => (congrFun (blk_br V c t) (ix2 (0 : Fin 1) q)).trans (hb q)) p q

/-- An index of the result is in tile `t`'s block iff each coordinate is in the block's range on its axis. -/
theorem mem_blk (t : Fin cfg0.N) (i : S100000x20.Idx) :
    i ∈ ((cfg0.win 5).blk t).view.set ↔ ∀ a : Fin 2, win0_5.index t a * S5000x20.size a ≤ (i a).val ∧ (i a).val < win0_5.index t a * S5000x20.size a + S5000x20.size a := by
  show i ∈ ((View.whole main_v26).slice (win0_5.rect t)).set ↔ _
  rw [View.set_slice_whole, Rect.mem_set_unit]
  exact Iff.rfl

/-- THE COVER: row `r` lies in tile `r / 5000`, which writes back. -/
theorem covered (i : S100000x20.Idx) :
    ∃ t : Fin cfg0.N, (cfg0.win 5).flush t = true ∧ i ∈ ((cfg0.win 5).blk t).view.set := by
  have hi0 : (i 0).val < 100000 := (i 0).isLt
  have hi1 : (i 1).val < 20 := (i 1).isLt
  have hlt : (i 0).val / 5000 < cfg0.N := by rw [show cfg0.N = 20 from N_0]; omega
  refine ⟨⟨(i 0).val / 5000, hlt⟩, flush0_5 _, ?_⟩
  rw [mem_blk]
  obtain ⟨-, -, -, -, -, -, -, -, -, -, e0, e1⟩ := idx_facts ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 20 ≤ (i 1).val ∧ (i 1).val < win0_5.index ⟨(i 0).val / 5000, hlt⟩ (1 : Fin 2) * 20 + 20
    rw [e1]; omega

include hW in
/-- THE ARRAY after the call: the plain layer clamped at zero, of the arrays as the call finds them. -/
theorem final (c : Dev nD) (b : FVec Ideal S20 .f32) (hb : ∀ q : Fin 20, brArr V c (ix2 (0 : Fin 1) q) = b (ix1 q)) :
    (dat0 V c).arrAt 5 cfg0.N = whole dW h1 h2 hzr (aggArr V c) (xArr V c) (wlArr V c) (wrArr V c) b :=
  (dat0 V c).arrAt_eq_of_cover 5 _ (fun t _ => flushed_eq V dW hW h1 h2 hzr c b hb t) covered

end

end Cert.KernelIdeal.Region0

end
-- ==== Proof.KRegion1.lean ====
/-
  The second tiled call read as one whole array.

  The same walk over 20 tiles of 5000 rows, now into 256 output columns and with no clamp: at tile `t` it stages rows
  `5000 t … 5000 t + 4999` of the aggregated hidden features and of the hidden features, the two 20 × 256 weight
  matrices and the bias row whole, and writes back rows `5000 t … 5000 t + 4999` of the result. Row `p` of a tile is
  row `5000 t + p` of each array, so by the row-by-row lemma the tile's value at `(p, q)` is the plain layer at
  `(5000 t + p, q)`; every row `r` lies in tile `r / 5000`, so the array after the call IS the plain layer of the
  arrays as the call finds them.
-/
import proofs.«130715_j82506321756776_1_alg».proof.Proof.Gen.KernelIdeal.Frame
import proofs.«130715_j82506321756776_1_alg».proof.Proof.LibSageLayer
import proofs.«130715_j82506321756776_1_alg».proof.Proof.KDots
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays the call finds, at their literal types -/

abbrev aggArr (c : Dev nD) : FVec Ideal S100000x20 .f32 := V c main_v39
abbrev xArr (c : Dev nD) : FVec Ideal S100000x20 .f32 := V c main_v26
abbrev wlArr (c : Dev nD) : FVec Ideal S20x256 .f32 := V c main_arg5
abbrev brArr (c : Dev nD) : FVec Ideal S1x256 .f32 := V c main_v40
abbrev wrArr (c : Dev nD) : FVec Ideal S20x256 .f32 := V c main_arg7

theorem hz : (![0, 0] : Fin 2 → Nat) = fun _ => 0 := funext fun a => by fin_cases a <;> rfl

/-- The row of the whole array that row `p` of tile `t` is. -/
def rowOf (t : Fin cfg1.N) (p : Fin 5000) : Fin 100000 :=
  ⟨t.val * 5000 + p.val, by have h : t.val < 20 := lt_of_lt_of_eq t.isLt N_1; have := p.isLt; omega⟩

/-- The printed index maps, decided over the grid: the two row-tiled inputs and the output sit at block `(t, 0)`, the
    weights and the bias row at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The blocks, read where the tile says -/

theorem read_agg (c : Dev nD) (t : Fin cfg1.N) (p : Fin 5000) (k : Fin 20) :
    iblk1 V c 0 t (ix2 p k) = aggArr V c (ix2 (rowOf t p) k) := by
  show V c main_v39 (((cfg1.win 0).blk t).view.emb (ix2 p k)) = V c main_v39 (ix2 (rowOf t p) k)
  refine congrArg _ (funext fun a => Fin.ext ?_)
  obtain ⟨e0, e1, -⟩ := idx_facts t
  match a with
  | ⟨0, _⟩ => show win1_0.index t (0 : Fin 2) * 5000 + 1 * p.val = t.val * 5000 + p.val; rw [e0]; omega
  | ⟨1, _⟩ => show win1_0.index t (1 : Fin 2) * 20 + 1 * k.val = k.val; rw [e1]; omega

theorem read_x (c : Dev nD) (t : Fin cfg1.N) (p : Fin 5000) (k : Fin 20) :
    iblk1 V c 1 t (ix2 p k) = xArr V c (ix2 (rowOf t p) k) := by
  show V c main_v26 (((cfg1.win 1).blk t).view.emb (ix2 p k)) = V c main_v26 (ix2 (rowOf t p) k)
  refine congrArg _ (funext fun a => Fin.ext ?_)
  obtain ⟨-, -, e0, e1, -⟩ := idx_facts t
  match a with
  | ⟨0, _⟩ => show win1_1.index t (0 : Fin 2) * 5000 + 1 * p.val = t.val * 5000 + p.val; rw [e0]; omega
  | ⟨1, _⟩ => show win1_1.index t (1 : Fin 2) * 20 + 1 * k.val = k.val; rw [e1]; omega

theorem blk_wl (c : Dev nD) (t : Fin cfg1.N) : iblk1 V c 2 t = wlArr V c := by
  funext y
  show V c main_arg5 (((cfg1.win 2).blk t).view.emb y) = V c main_arg5 y
  refine congrArg _ (funext fun a => Fin.ext ?_)
  obtain ⟨-, -, -, -, e0, e1, -⟩ := idx_facts t
  match a with
  | ⟨0, _⟩ => show win1_2.index t (0 : Fin 2) * 20 + 1 * (y 0).val = (y 0).val; rw [e0]; omega
  | ⟨1, _⟩ => show win1_2.index t (1 : Fin 2) * 256 + 1 * (y 1).val = (y 1).val; rw [e1]; omega

theorem blk_br (c : Dev nD) (t : Fin cfg1.N) : iblk1 V c 3 t = brArr V c := by
  funext y
  show V c main_v40 (((cfg1.win 3).blk t).view.emb y) = V c main_v40 y
  refine congrArg _ (funext fun a => Fin.ext ?_)
  obtain ⟨-, -, -, -, -, -, e0, e1, -⟩ := idx_facts t
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem blk_wr (c : Dev nD) (t : Fin cfg1.N) : iblk1 V c 4 t = wrArr V c := by
  funext y
  show V c main_arg7 (((cfg1.win 4).blk t).view.emb y) = V c main_arg7 y
  refine congrArg _ (funext fun a => Fin.ext ?_)
  obtain ⟨-, -, -, -, -, -, -, -, e0, e1, -⟩ := idx_facts t
  match a with
  | ⟨0, _⟩ => show win1_4.index t (0 : Fin 2) * 20 + 1 * (y 0).val = (y 0).val; rw [e0]; omega
  | ⟨1, _⟩ => show win1_4.index t (1 : Fin 2) * 256 + 1 * (y 1).val = (y 1).val; rw [e1]; omega

theorem emb_out (t : Fin cfg1.N) (p : Fin 5000) (q : Fin 256) :
    ((cfg1.win 5).blk t).view.emb (ix2 p q) = ix2 (rowOf t p) q := by
  funext a; apply Fin.ext
  obtain ⟨-, -, -, -, -, -, -, -, -, -, e0, e1⟩ := idx_facts t
  match a with
  | ⟨0, _⟩ => show win1_5.index t (0 : Fin 2) * 5000 + 1 * p.val = t.val * 5000 + p.val; rw [e0]; omega
  | ⟨1, _⟩ => show win1_5.index t (1 : Fin 2) * 256 + 1 * q.val = q.val; rw [e1]; omega

/-! ## The tile's value at an index -/

section
variable (dW : DotDims S100000x20 S20x256 S100000x256) (hW : Cert.Lib.PlainDot (R := 100000) (K := 20) (M := 256) dW)
  (h1 : S256.BroadcastsInDim S1x256 (![1] : Fin 1 → Fin 2)) (h2 : S1x256.BroadcastsInDim S100000x256 (![0, 1] : Fin 2 → Fin 2))

/-- What the call leaves: the plain layer, of whole arrays. -/
abbrev whole (A X : FVec Ideal S100000x20 .f32) (wl wr : FVec Ideal S20x256 .f32) (b : FVec Ideal S256 .f32) :
    FVec Ideal S100000x256 .f32 :=
  Cert.Sage.layer dW h1 h2 A X wl wr b

include hW in
/-- The body's stored value at `(p, q)`, over any blocks whose rows are rows `n p` of `A` and `X`. -/
theorem pay_at (x0 x1 : FVec Ideal S5000x20 .f32) (x2 x4 : FVec Ideal S20x256 .f32) (x3 : FVec Ideal S1x256 .f32)
    (A X : FVec Ideal S100000x20 .f32) (b : FVec Ideal S256 .f32) (n : Fin 5000 → Fin 100000)
    (ha : ∀ r k, x0 (ix2 r k) = A (ix2 (n r) k)) (hx : ∀ r k, x1 (ix2 r k) = X (ix2 (n r) k))
    (hb : ∀ q : Fin 256, x3 (ix2 (0 : Fin 1) q) = b (ix1 q)) (p : Fin 5000) (q : Fin 256) :
    k1_pay1 x0 x1 x2 x4 x3 (ix2 p q) = whole dW h1 h2 A X x2 x4 b (ix2 (n p) q) := by
  show addf (addf (matmul dot_S5000x20_S20x256_S5000x256_1_0_0_1_n_n none (truncf .bf16 (shapeCast S5000x20 x0 shapeCasts_S5000x20_S5000x20) bitsLt_bf16_f32) (truncf .bf16 x2 bitsLt_bf16_f32) (constant S5000x256 .f32 0x00000000#32))
        (matmul dot_S5000x20_S20x256_S5000x256_1_0_0_1_n_n none (truncf .bf16 (shapeCast S5000x20 x1 shapeCasts_S5000x20_S5000x20) bitsLt_bf16_f32) (truncf .bf16 x4 bitsLt_bf16_f32) (constant S5000x256 .f32 0x00000000#32)))
      (broadcastTo S5000x256 (shapeCast S1x256 x3 shapeCasts_S1x256_S1x256) broadcasts_S1x256_S5000x256) (ix2 p q) = _
  exact Cert.Sage.tile_rows Dots.plain_o hW (shapeCast S5000x20 x0 shapeCasts_S5000x20_S5000x20)
    (shapeCast S5000x20 x1 shapeCasts_S5000x20_S5000x20) A X x2 x4 x3 b n
    (fun r k => by rw [shapeCast_self]; exact ha r k) (fun r k => by rw [shapeCast_self]; exact hx r k) hb
    bitsLt_bf16_f32 shapeCasts_S1x256_S1x256 broadcasts_S1x256_S5000x256 h1 h2 p q

/-! ## From the tiles to the array -/

include hW in
/-- WHAT TILE `t` WRITES BACK is block `t` of the plain layer. -/
theorem flushed_eq (c : Dev nD) (b : FVec Ideal S256 .f32) (hb : ∀ q : Fin 256, brArr V c (ix2 (0 : Fin 1) q) = b (ix1 q))
    (t : Fin cfg1.N) :
    (dat1 V c).flushed 5 t = ((cfg1.win 5).blk t).view.read (Elt Ideal)
      (whole dW h1 h2 (aggArr V c) (xArr V c) (wlArr V c) (wrArr V c) b) := by
  show (cfg1.win 5).cut (grid1.coords t) ((dat1 V c).after 5 t) = _
  rw [after1_5]
  unfold out1_5
  rw [View.canon_unit_zero hz]
  simp only [View.ld_unit_zero (S := S5000x20) hz, View.ld_unit_zero (S := S20x256) hz, View.ld_unit_zero (S := S1x256) hz]
  funext j
  obtain ⟨p, q, rfl⟩ : ∃ (p : Fin 5000) (q : Fin 256), j = ix2 p q := ⟨j 0, j 1, eq_ix2 j⟩
  show k1_pay1 (iblk1 V c 0 t) (iblk1 V c 1 t) (iblk1 V c 2 t) (iblk1 V c 4 t) (iblk1 V c 3 t) (ix2 p q)
    = whole dW h1 h2 (aggArr V c) (xArr V c) (wlArr V c) (wrArr V c) b (((cfg1.win 5).blk t).view.emb (ix2 p q))
  rw [emb_out t p q, ← blk_wl V c t, ← blk_wr V c t]
  exact pay_at dW hW h1 h2 (iblk1 V c 0 t) (iblk1 V c 1 t) (iblk1 V c 2 t) (iblk1 V c 4 t) (iblk1 V c 3 t)
    (aggArr V c) (xArr V c) b (rowOf t) (read_agg V c t) (read_x V c t)
    (fun q => (congrFun (blk_br V c t) (ix2 (0 : Fin 1) q)).trans (hb q)) p q

/-- An index of the result is in tile `t`'s block iff each coordinate is in the block's range on its axis. -/
theorem mem_blk (t : Fin cfg1.N) (i : S100000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v41).slice (win1_5.rect t)).set ↔ _
  rw [View.set_slice_whole, Rect.mem_set_unit]
  exact Iff.rfl

/-- THE COVER: row `r` lies in tile `r / 5000`, which writes back. -/
theorem covered (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hlt : (i 0).val / 5000 < cfg1.N := by rw [show cfg1.N = 20 from N_1]; omega
  refine ⟨⟨(i 0).val / 5000, hlt⟩, flush1_5 _, ?_⟩
  rw [mem_blk]
  obtain ⟨-, -, -, -, -, -, -, -, -, -, e0, e1⟩ := idx_facts ⟨(i 0).val / 5000, hlt⟩
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 256 ≤ (i 1).val ∧ (i 1).val < win1_5.index ⟨(i 0).val / 5000, hlt⟩ (1 : Fin 2) * 256 + 256
    rw [e1]; omega

include hW in
/-- THE ARRAY after the call: the plain layer, of the arrays as the call finds them. -/
theorem final (c : Dev nD) (b : FVec Ideal S256 .f32) (hb : ∀ q : Fin 256, brArr V c (ix2 (0 : Fin 1) q) = b (ix1 q)) :
    (dat1 V c).arrAt 5 cfg1.N = whole dW h1 h2 (aggArr V c) (xArr V c) (wlArr V c) (wrArr V c) b :=
  (dat1 V c).arrAt_eq_of_cover 5 _ (fun t _ => flushed_eq V dW hW h1 h2 c b hb t) covered

end

end Cert.KernelIdeal.Region1

end
-- ==== Proof.KHost.lean ====
/-
  The kernel program's host stretches, read back to the launch memory.

  Before each tiled call the host gathers the rows of a feature array at the edges' sources, adds them up at the edges'
  destinations, and multiplies row `n` by the reciprocal of `max (deg n) 1`, where `deg` counts the edges into `n`.
  These steps are named here once, as functions of the feature array and of the two index rows cut from `edge_index`
  (`nbrSum`, `degClamp`, `invDeg`, `meanMul`), and each array a tiled call stages is read through the stretch before
  it: the first call's inputs from the launch memory, the second call's from what the first call left. Nothing here
  opens a gather or a scatter: they stay applied to their operands.
-/
import proofs.«130715_j82506321756776_1_alg».proof.Proof.Gen.KernelIdeal.Frame
import Idealize.ShloMosaic.Lib.StableHlo.Run
import Idealize.ShloMosaic.PureOps.Ideal
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

/-! ## The host's steps as functions -/

/-- Row 0 of `edge_index`: the edges' sources. -/
def srcRow (ei : IVec S2x3200000 32) : IVec S3200000 32 :=
  shapeCast S3200000 (extractStridedSlice S1x3200000 ![0, 0] ei slices_S2x3200000_S1x3200000_0_0) shapeCasts_S1x3200000_S3200000
/-- Row 1 of `edge_index`: the edges' destinations. -/
def dstRow (ei : IVec S2x3200000 32) : IVec S3200000 32 :=
  shapeCast S3200000 (extractStridedSlice S1x3200000 ![1, 0] ei slices_S2x3200000_S1x3200000_1_0) shapeCasts_S1x3200000_S3200000

/-- The rows of `feat` at the sources (a negative source counted from the end), added up at the destinations. -/
def nbrSum (feat : FVec Ideal S100000x20 .f32) (src dst : IVec S3200000 32) : FVec Ideal S100000x20 .f32 :=
  Host.scatterAdd scatter_S100000x20_S3200000x1_S3200000x20_1_0_0_1
    (broadcastInDim S100000x20 ![] bcast_S_S100000x20 (constant S_ .f32 0x00000000#32))
    (broadcastInDim S3200000x1 ![0] bcast_S3200000_S3200000x1_0 dst)
    (Host.gather gather_S100000x20_S3200000x1_S3200000x20_1_0_n_n_0_1_120 feat
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- Ones, one per node. -/
def onesN : FVec Ideal S100000 .f32 := broadcastInDim S100000 ![] bcast_S_S100000 (constant S_ .f32 0x3F800000#32)

/-- The number of edges into each node. -/
def deg (dst : IVec S3200000 32) : FVec Ideal S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 dst)
    (broadcastInDim S3200000 ![] bcast_S_S3200000 (constant S_ .f32 0x3F800000#32))

/-- `max deg 1`. -/
def degClamp (dst : IVec S3200000 32) : FVec Ideal S100000 .f32 := maximumf (deg dst) onesN

/-- `1 / max deg 1`. -/
def invDeg (dst : IVec S3200000 32) : FVec Ideal S100000 .f32 := Host.divf onesN (degClamp dst)

/-- A per-node vector as a column, repeated over the 20 feature columns. -/
def column (v : FVec Ideal S100000 .f32) : FVec Ideal S100000x20 .f32 :=
  broadcastInDim S100000x20 ![0, 1] bcast_S100000x1_S100000x20_0_1 (broadcastInDim S100000x1 ![0] bcast_S100000_S100000x1_0 v)

/-- The neighbour sums times a per-node factor. -/
def meanMul (feat : FVec Ideal S100000x20 .f32) (src dst : IVec S3200000 32) (inv : FVec Ideal S100000 .f32) :
    FVec Ideal S100000x20 .f32 :=
  mulf (nbrSum feat src dst) (column inv)

/-! ## The launch memory's arrays at their literal types -/

variable (m : (ℓ : Loc nD τ sig) → Buf (Elt Ideal) ℓ) (ρ : Dev nD → PrngReg)

abbrev xIn (c : Dev nD) : FVec Ideal S100000x20 .f32 := m ((c : Thread nD τ).loc main_arg0)
abbrev eiIn (c : Dev nD) : IVec S2x3200000 32 := m ((c : Thread nD τ).loc main_arg1)
abbrev wl1In (c : Dev nD) : FVec Ideal S20x20 .f32 := m ((c : Thread nD τ).loc main_arg2)
abbrev b1In (c : Dev nD) : FVec Ideal S20 .f32 := m ((c : Thread nD τ).loc main_arg3)
abbrev wr1In (c : Dev nD) : FVec Ideal S20x20 .f32 := m ((c : Thread nD τ).loc main_arg4)
abbrev wl2In (c : Dev nD) : FVec Ideal S20x256 .f32 := m ((c : Thread nD τ).loc main_arg5)
abbrev b2In (c : Dev nD) : FVec Ideal S256 .f32 := m ((c : Thread nD τ).loc main_arg6)
abbrev wr2In (c : Dev nD) : FVec Ideal S20x256 .f32 := m ((c : Thread nD τ).loc main_arg7)

/-- What the first tiled call leaves in its result array. -/
abbrev hidden (c : Dev nD) : FVec Ideal S100000x20 .f32 := (dat0 (V1 m ρ) c).arrAt 5 cfg0.N

/-! ## The first call's inputs -/

set_option maxHeartbeats 8000000 in
theorem V1_agg (c : Dev nD) : (V1 m ρ c main_v24 : FVec Ideal S100000x20 .f32)
    = meanMul (xIn m c) (srcRow (eiIn m c)) (dstRow (eiIn m c)) (invDeg (dstRow (eiIn m c))) := by
  show StableHlo.after hostOps0 (W0 m ρ c) (Proc.devRef .tc main_v24) = _
  after_results_simp
  rfl

set_option maxHeartbeats 8000000 in
theorem V1_x (c : Dev nD) : (V1 m ρ c main_arg0 : FVec Ideal S100000x20 .f32) = xIn m c := by
  show StableHlo.after hostOps0 (W0 m ρ c) (Proc.devRef .tc main_arg0) = _
  after_results_simp <;> rfl

set_option maxHeartbeats 8000000 in
theorem V1_wl (c : Dev nD) : (V1 m ρ c main_arg2 : FVec Ideal S20x20 .f32) = wl1In m c := by
  show StableHlo.after hostOps0 (W0 m ρ c) (Proc.devRef .tc main_arg2) = _
  after_results_simp <;> rfl

set_option maxHeartbeats 8000000 in
theorem V1_wr (c : Dev nD) : (V1 m ρ c main_arg4 : FVec Ideal S20x20 .f32) = wr1In m c := by
  show StableHlo.after hostOps0 (W0 m ρ c) (Proc.devRef .tc main_arg4) = _
  after_results_simp <;> rfl

set_option maxHeartbeats 8000000 in
theorem V1_b (c : Dev nD) : (V1 m ρ c main_v25 : FVec Ideal S1x20 .f32) = shapeCast S1x20 (b1In m c) shapeCasts_S20_S1x20 := by
  show StableHlo.after hostOps0 (W0 m ρ c) (Proc.devRef .tc main_v25) = _
  after_results_simp <;> rfl

/-- The bias row the first call stages is the bias vector. -/
theorem V1_b_apply (c : Dev nD) (q : Fin 20) : (V1 m ρ c main_v25 : FVec Ideal S1x20 .f32) (ix2 (0 : Fin 1) q) = b1In m c (ix1 q) := by
  rw [V1_b]; exact shapeCast_a_1a_apply _ _ _ _

/-! ## What the first stretch leaves for the second -/

set_option maxHeartbeats 8000000 in
theorem W1_src (c : Dev nD) : (W1 m ρ c (Proc.devRef .tc main_v1) : IVec S3200000 32) = srcRow (eiIn m c) := by
  show StableHlo.after hostOps0 (W0 m ρ c) (Proc.devRef .tc main_v1) = _
  after_results_simp <;> rfl

set_option maxHeartbeats 8000000 in
theorem W1_dst (c : Dev nD) : (W1 m ρ c (Proc.devRef .tc main_v3) : IVec S3200000 32) = dstRow (eiIn m c) := by
  show StableHlo.after hostOps0 (W0 m ρ c) (Proc.devRef .tc main_v3) = _
  after_results_simp <;> rfl

set_option maxHeartbeats 8000000 in
theorem W1_inv (c : Dev nD) : (W1 m ρ c (Proc.devRef .tc main_v11) : FVec Ideal S100000 .f32) = invDeg (dstRow (eiIn m c)) := by
  show StableHlo.after hostOps0 (W0 m ρ c) (Proc.devRef .tc main_v11) = _
  after_results_simp <;> rfl

set_option maxHeartbeats 8000000 in
theorem W1_arg (c : Dev nD) (b : Ref sig .tc) (hb : b = main_arg5 ∨ b = main_arg6 ∨ b = main_arg7) :
    W1 m ρ c (Proc.devRef .tc b) = m ((c : Thread nD τ).loc b) := by
  show StableHlo.after hostOps0 (W0 m ρ c) (Proc.devRef .tc b) = _
  rcases hb with rfl | rfl | rfl <;> (after_results_simp <;> rfl)

/-- The first call changes its own arrays only. -/
theorem W2_src (c : Dev nD) : (W2 m ρ c (Proc.devRef .tc main_v1) : IVec S3200000 32) = srcRow (eiIn m c) :=
  (W2_of_ne m ρ c main_v1 (by decide)).trans (W1_src m ρ c)
theorem W2_dst (c : Dev nD) : (W2 m ρ c (Proc.devRef .tc main_v3) : IVec S3200000 32) = dstRow (eiIn m c) :=
  (W2_of_ne m ρ c main_v3 (by decide)).trans (W1_dst m ρ c)
theorem W2_inv (c : Dev nD) : (W2 m ρ c (Proc.devRef .tc main_v11) : FVec Ideal S100000 .f32) = invDeg (dstRow (eiIn m c)) :=
  (W2_of_ne m ρ c main_v11 (by decide)).trans (W1_inv m ρ c)
theorem W2_hidden (c : Dev nD) : (W2 m ρ c (Proc.devRef .tc main_v26) : FVec Ideal S100000x20 .f32) = hidden m ρ c :=
  W2_arr m ρ c 5
theorem W2_wl (c : Dev nD) : (W2 m ρ c (Proc.devRef .tc main_arg5) : FVec Ideal S20x256 .f32) = wl2In m c :=
  (W2_of_ne m ρ c main_arg5 (by decide)).trans (W1_arg m ρ c main_arg5 (.inl rfl))
theorem W2_b (c : Dev nD) : (W2 m ρ c (Proc.devRef .tc main_arg6) : FVec Ideal S256 .f32) = b2In m c :=
  (W2_of_ne m ρ c main_arg6 (by decide)).trans (W1_arg m ρ c main_arg6 (.inr (.inl rfl)))
theorem W2_wr (c : Dev nD) : (W2 m ρ c (Proc.devRef .tc main_arg7) : FVec Ideal S20x256 .f32) = wr2In m c :=
  (W2_of_ne m ρ c main_arg7 (by decide)).trans (W1_arg m ρ c main_arg7 (.inr (.inr rfl)))

/-! ## The second call's inputs -/

set_option maxHeartbeats 8000000 in
theorem V3_agg (c : Dev nD) : (V3 m ρ c main_v39 : FVec Ideal S100000x20 .f32)
    = meanMul (hidden m ρ c) (srcRow (eiIn m c)) (dstRow (eiIn m c)) (invDeg (dstRow (eiIn m c))) := by
  show StableHlo.after hostOps1 (W2 m ρ c) (Proc.devRef .tc main_v39) = _
  after_results_simp
  rw [W2_src, W2_dst, W2_inv, W2_hidden]
  rfl

set_option maxHeartbeats 8000000 in
theorem V3_h (c : Dev nD) : (V3 m ρ c main_v26 : FVec Ideal S100000x20 .f32) = hidden m ρ c := by
  show StableHlo.after hostOps1 (W2 m ρ c) (Proc.devRef .tc main_v26) = _
  after_results_simp
  exact W2_hidden m ρ c

set_option maxHeartbeats 8000000 in
theorem V3_wl (c : Dev nD) : (V3 m ρ c main_arg5 : FVec Ideal S20x256 .f32) = wl2In m c := by
  show StableHlo.after hostOps1 (W2 m ρ c) (Proc.devRef .tc main_arg5) = _
  after_results_simp
  exact W2_wl m ρ c

set_option maxHeartbeats 8000000 in
theorem V3_wr (c : Dev nD) : (V3 m ρ c main_arg7 : FVec Ideal S20x256 .f32) = wr2In m c := by
  show StableHlo.after hostOps1 (W2 m ρ c) (Proc.devRef .tc main_arg7) = _
  after_results_simp
  exact W2_wr m ρ c

set_option maxHeartbeats 8000000 in
theorem V3_b (c : Dev nD) : (V3 m ρ c main_v40 : FVec Ideal S1x256 .f32) = shapeCast S1x256 (b2In m c) shapeCasts_S256_S1x256 := by
  show StableHlo.after hostOps1 (W2 m ρ c) (Proc.devRef .tc main_v40) = _
  after_results_simp
  rw [W2_b]
  rfl

/-- The bias row the second call stages is the bias vector. -/
theorem V3_b_apply (c : Dev nD) (q : Fin 256) : (V3 m ρ c main_v40 : FVec Ideal S1x256 .f32) (ix2 (0 : Fin 1) q) = b2In m c (ix1 q) := by
  rw [V3_b]; exact shapeCast_a_1a_apply _ _ _ _

end Cert.KernelIdeal.Host

end
-- ==== Proof.RefReading.lean ====
/-
  The plain program read back: its result array as two nested layers of the argument arrays.

  The program's generated run states the result as one composed term, and its generated stage lemmas name every
  operation's value. Here those stages are gathered into the shape the certificate compares: the mean step
  (`meanDiv`: the neighbour sums divided by `max deg 1`, row by row), the hidden array (`val_main_v29`: the layer of
  the mean of `x`, clamped at zero) and the result (`val_main_v58`: the layer of the mean of the hidden array). Both
  equations hold by unfolding the stages; the second one also uses that the program cuts the same two index rows
  out of `edge_index` a second time.
-/
import proofs.«130715_j82506321756776_1_alg».proof.Defs
import proofs.«130715_j82506321756776_1_alg».proof.Proof.Gen.ReferenceIdeal.Run
import proofs.«130715_j82506321756776_1_alg».proof.Proof.Gen.ReferenceIdeal.Read
import proofs.«130715_j82506321756776_1_alg».proof.Proof.LibSageLayer

noncomputable section

namespace Cert.ReferenceIdeal.RefValue

open Cert.ReferenceIdeal Cert.ReferenceIdeal.Gen Cert.ReferenceIdeal.Read
open Idealize.ShloMosaic Idealize.ShloMosaic.TcCoe Idealize.SL.Sem

/-- The first layer's `dot_general` is the plain product of `[100000, 20]` by `[20, 20]`. -/
theorem plain_h : Cert.Lib.PlainDot (R := 100000) (K := 20) (M := 20) dot_S100000x20_S20x20_S100000x20_1_0_0_1_n_n :=
  ⟨rfl, rfl, lhs_main_v23_0, lhs_main_v23_1, rhs_main_v23_0, rhs_main_v23_1⟩

/-- The second layer's `dot_general` is the plain product of `[100000, 20]` by `[20, 256]`. -/
theorem plain_o : Cert.Lib.PlainDot (R := 100000) (K := 20) (M := 256) dot_S100000x20_S20x256_S100000x256_1_0_0_1_n_n :=
  ⟨rfl, rfl, lhs_main_v53_0, lhs_main_v53_1, rhs_main_v53_0, rhs_main_v53_1⟩

/-- THE MEAN STEP: the rows of `feat` at the edges' sources added up at their destinations, row `n` divided by
    `max (deg n) 1`. -/
def meanDiv (feat : FVec Ideal S100000x20 .f32) (ei : IVec S2x3200000 32) : FVec Ideal S100000x20 .f32 :=
  Host.divf
    (Host.scatterAdd scatter_S100000x20_S3200000x1_S3200000x20_1_0_0_1 (val_main_v11 (F := Ideal)) (val_main_v12 (F := Ideal) ei)
      (Host.gather gather_S100000x20_S3200000x1_S3200000x20_1_0_n_n_0_1_120 feat (val_main_v9 (F := Ideal) ei)))
    (val_main_v21 (F := Ideal) ei)

/-- The zero splat the clamp compares against. -/
abbrev zeros : FVec Ideal S100000x20 .f32 := broadcastInDim S100000x20 ![] bcast_S_S100000x20 (constant S_ .f32 0x00000000#32)

variable (x0 : FVec Ideal S100000x20 .f32) (x1 : IVec S2x3200000 32) (x2 : FVec Ideal S20x20 .f32) (x3 : FVec Ideal S20 .f32)
  (x4 : FVec Ideal S20x20 .f32) (x5 : FVec Ideal S20x256 .f32) (x6 : FVec Ideal S256 .f32) (x7 : FVec Ideal S20x256 .f32)

/-- The hidden array: the layer of the mean of `x`, clamped at zero. -/
theorem hidden_eq : val_main_v29 (F := Ideal) x0 x1 x2 x3 x4
    = maximumf (Cert.Sage.layer dot_S100000x20_S20x20_S100000x20_1_0_0_1_n_n bcast_S20_S1x20_1 bcast_S1x20_S100000x20_0_1
        (meanDiv x0 x1) x0 x2 x4 x3) zeros := rfl

/-- The result: the layer of the mean of the hidden array. -/
theorem result_eq : val_main_v58 (F := Ideal) x0 x1 x2 x3 x4 x5 x6 x7
    = Cert.Sage.layer dot_S100000x20_S20x256_S100000x256_1_0_0_1_n_n bcast_S256_S1x256_1 bcast_S1x256_S100000x256_0_1
        (meanDiv (val_main_v29 (F := Ideal) x0 x1 x2 x3 x4) x1) (val_main_v29 (F := Ideal) x0 x1 x2 x3 x4) x5 x7 x6 := rfl

end Cert.ReferenceIdeal.RefValue

end
-- ==== Proof.Bridge.lean ====
/-
  The two programs compute one function.

  The kernel program's result array is what its second tiled call leaves, and by the two array readings that is the
  plain layer of the arrays the call finds: the mean of the hidden array, the hidden array, and the second layer's
  weights and bias; the hidden array in turn is the plain layer, clamped at zero, of the mean of `x`, of `x` and of
  the first layer's weights and bias. The plain program's stages say the same with one difference: where the kernel
  program multiplies the neighbour sums by `1 / max deg 1`, the plain program divides them by `max deg 1`. The divisor
  is at least one, so the two means are equal (`mean_eq`), and the gathers and scatters on the two sides are the same
  operations of the same operands.
-/
import proofs.«130715_j82506321756776_1_alg».proof.Proof.KLaunch
import proofs.«130715_j82506321756776_1_alg».proof.Proof.KRegion0
import proofs.«130715_j82506321756776_1_alg».proof.Proof.KRegion1
import proofs.«130715_j82506321756776_1_alg».proof.Proof.KHost
import proofs.«130715_j82506321756776_1_alg».proof.Proof.RefReading

set_option maxRecDepth 16384

noncomputable section

namespace Cert.Proof.Bridge

open Cert.KernelIdeal Cert.KernelIdeal.Gen Cert.KernelIdeal.Host
open Idealize.ShloMosaic Idealize.ShloMosaic.TcCoe Idealize.ShloMosaic.ValueIdx Idealize.SL.Sem

/-- THE MEAN, on the two sides: the neighbour sums times the reciprocal of `max deg 1` are the neighbour sums divided
    by `max deg 1`. -/
theorem mean_eq (feat : FVec Ideal S100000x20 .f32) (ei : IVec S2x3200000 32) :
    meanMul feat (srcRow ei) (dstRow ei) (invDeg (dstRow ei)) = Cert.ReferenceIdeal.RefValue.meanDiv feat ei :=
  (Cert.Sage.mean_eq (N := 100000) (K := 20) (nbrSum feat (srcRow ei) (dstRow ei)) (deg (dstRow ei)) onesN onesN
    (fun i => Cert.Sage.ones_apply _ i) (fun i => Cert.Sage.ones_apply _ i)
    bcast_S100000_S100000x1_0 bcast_S100000x1_S100000x20_0_1).trans rfl

variable (m : (ℓ : Loc nD τ sig) → Buf (Elt Ideal) ℓ) (ρ : Dev nD → PrngReg)

/-- The kernel program's hidden array is the plain program's. -/
theorem hidden_eq (c : Dev nD) :
    hidden m ρ c = Cert.ReferenceIdeal.Read.val_main_v29 (F := Ideal) (xIn m c) (eiIn m c) (wl1In m c) (b1In m c) (wr1In m c) := by
  rw [Cert.ReferenceIdeal.RefValue.hidden_eq]
  refine (Region0.final (V1 m ρ) Cert.ReferenceIdeal.dot_S100000x20_S20x20_S100000x20_1_0_0_1_n_n Cert.ReferenceIdeal.RefValue.plain_h
    Cert.ReferenceIdeal.Gen.bcast_S20_S1x20_1 Cert.ReferenceIdeal.Gen.bcast_S1x20_S100000x20_0_1 Cert.ReferenceIdeal.Gen.bcast_S_S100000x20
    c (b1In m c) (V1_b_apply m ρ c)).trans ?_
  show Region0.whole _ _ _ _ (V1 m ρ c main_v24) (V1 m ρ c main_arg0) (V1 m ρ c main_arg2) (V1 m ρ c main_arg4) (b1In m c) = _
  rw [V1_agg, V1_x, V1_wl, V1_wr, mean_eq]

/-- The kernel program's result array is the plain program's. -/
theorem out_eq (c : Dev nD) :
    (dat1 (V3 m ρ) c).arrAt 5 cfg1.N = Cert.ReferenceIdeal.Read.val_main_v58 (F := Ideal) (xIn m c) (eiIn m c) (wl1In m c) (b1In m c)
      (wr1In m c) (wl2In m c) (b2In m c) (wr2In m c) := by
  rw [Cert.ReferenceIdeal.RefValue.result_eq, ← hidden_eq m ρ c]
  refine (Region1.final (V3 m ρ) Cert.ReferenceIdeal.dot_S100000x20_S20x256_S100000x256_1_0_0_1_n_n Cert.ReferenceIdeal.RefValue.plain_o
    Cert.ReferenceIdeal.Gen.bcast_S256_S1x256_1 Cert.ReferenceIdeal.Gen.bcast_S1x256_S100000x256_0_1
    c (b2In m c) (V3_b_apply m ρ c)).trans ?_
  show Region1.whole _ _ _ (V3 m ρ c main_v39) (V3 m ρ c main_v26) (V3 m ρ c main_arg5) (V3 m ρ c main_arg7) (b2In m c) = _
  rw [V3_agg, V3_h, V3_wl, V3_wr, mean_eq]

/-- THE KERNEL PROGRAM'S RUN with its result named by the plain program's last stage, of the launch arrays. -/
theorem run : θ_run defs (onTc (τ := τ) (main (F := Ideal))) ⟨m, fun _ => 0, ρ⟩ (fun r => ∀ c : Dev nD,
      r.2.mem ((c.tc : Thread nD τ).loc main_v41) = Cert.ReferenceIdeal.Read.val_main_v58 (F := Ideal) (xIn m c) (eiIn m c) (wl1In m c)
        (b1In m c) (wr1In m c) (wl2In m c) (b2In m c) (wr2In m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.KernelIdeal.Out.run_out m ρ)

end Cert.Proof.Bridge

end
-- ==== Proof.lean ====
/-
  Two layers of mean aggregation over a graph (`h = max (mean x · W_l1 + b_l1 + x · W_r1) 0`, then
  `out = mean h · W_l2 + b_l2 + h · W_r2`), the dense part of each layer tiled over 5000-row blocks on the matrix unit
  with bf16-narrowed operands, against the plain program that computes each layer by whole `dot_general`s.

  At the ideal values narrowing is the identity and a matrix product is the textbook sum, so a tile's rows are the
  plain layer's rows; the tiles cover the rows; the order in which the three summands of a layer are added does not
  matter on the extended reals; and the kernel program's product with `1 / max deg 1` is the plain program's quotient
  by `max deg 1` because that divisor is at least one. The gathers and scatter-adds are the same operations of the
  same operands on both sides and are never opened. No finiteness of the inputs is used.

  The three frames are the generated ones (the plain program's is its generated run with the result dropped), the
  idealization rewrote nothing, and the value claim puts the two runs side by side at the plain program's last stage.
-/
import proofs.«130715_j82506321756776_1_alg».proof.Defs
import proofs.«130715_j82506321756776_1_alg».proof.Proof.Gen.Kernel
import proofs.«130715_j82506321756776_1_alg».proof.Proof.Gen.Kernel.Skeleton
import proofs.«130715_j82506321756776_1_alg».proof.Proof.Gen.Kernel.Launch
import proofs.«130715_j82506321756776_1_alg».proof.Proof.Gen.Kernel.Points
import proofs.«130715_j82506321756776_1_alg».proof.Proof.Gen.Kernel.Frame
import proofs.«130715_j82506321756776_1_alg».proof.Proof.Gen.KernelIdeal
import proofs.«130715_j82506321756776_1_alg».proof.Proof.Gen.KernelIdeal.Skeleton
import proofs.«130715_j82506321756776_1_alg».proof.Proof.Gen.KernelIdeal.Launch
import proofs.«130715_j82506321756776_1_alg».proof.Proof.Gen.KernelIdeal.Points
import proofs.«130715_j82506321756776_1_alg».proof.Proof.Gen.KernelIdeal.Frame
import proofs.«130715_j82506321756776_1_alg».proof.Proof.Gen.ReferenceIdeal
import proofs.«130715_j82506321756776_1_alg».proof.Proof.Gen.ReferenceIdeal.Run
import proofs.«130715_j82506321756776_1_alg».proof.Proof.Gen.ReferenceIdeal.Read
import proofs.«130715_j82506321756776_1_alg».proof.Proof.Gen.Pre_finite_inputs
import proofs.«130715_j82506321756776_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, from memories agreeing on the arguments, with the result at the plain program's last stage of the
    arguments. -/
theorem algebraic : Cert.algebraic_KernelIdeal_ReferenceIdeal := by
  intro m ρ m' ρ' _ hagree
  refine ⟨_, Cert.Proof.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v58_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
